-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x8x8 : Shape := ⟨4, ![256, 512, 8, 8]⟩
abbrev S32x512 : Shape := ⟨2, ![32, 512]⟩
abbrev S512x32 : Shape := ⟨2, ![512, 32]⟩
abbrev S_ : Shape := ⟨0, ![]⟩

class Facts : Prop where
  bcast_S_S256x512x8x8 : S_.BroadcastsInDim S256x512x8x8 (![] : Fin 0 → Fin S256x512x8x8.rank)
  reducesTo_S256x512x8x8_S_d0_1_2_3 : S256x512x8x8.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S256x512x8x8 .f32) (main_arg1 : FVec F S32x512 .f32) (main_arg2 : FVec F S512x32 .f32) : IVec S_ 1 :=
  let main_v0 : FVec F S256x512x8x8 .f32 := Host.absf main_arg0
  let main_cst : FVec F S_ .f32 := constant S_ .f32 0x7F800000#32
  let main_v1 : FVec F S256x512x8x8 .f32 := broadcastInDim S256x512x8x8 ![] bcast_S_S256x512x8x8 main_cst
  let main_v2 : IVec S256x512x8x8 1 := cmpf .olt main_v0 main_v1
  let main_c : IVec S_ 1 := constantI S_ 1 1#1
  let main_v3 : IVec S_ 1 := (fun x v => Host.reduce IntOp.andi x v reducesTo_S256x512x8x8_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S256x512x8x8 : Shape := ⟨4, ![256, 512, 8, 8]⟩
abbrev S32x512 : Shape := ⟨2, ![32, 512]⟩
abbrev S512x32 : Shape := ⟨2, ![512, 32]⟩
abbrev S256x8x8x512 : Shape := ⟨4, ![256, 8, 8, 512]⟩
abbrev S256x64x512 : Shape := ⟨3, ![256, 64, 512]⟩
abbrev S16x64x512 : Shape := ⟨3, ![16, 64, 512]⟩
abbrev S16x512 : Shape := ⟨2, ![16, 512]⟩
abbrev S16x32 : Shape := ⟨2, ![16, 32]⟩
abbrev S16x1x512 : Shape := ⟨3, ![16, 1, 512]⟩

abbrev nBuf : Space → Nat
  | .hbm => 10
  | .vmem => 6
  | .smem => 0
  | _ => 0

abbrev bufTy : (tb : Table) → Fin (tcTables nBuf tb) → BufTy
  | .hbm, ⟨0, _⟩ => ⟨S256x512x8x8, .f32⟩
  | .hbm, ⟨1, _⟩ => ⟨S32x512, .f32⟩
  | .hbm, ⟨2, _⟩ => ⟨S512x32, .f32⟩
  | .hbm, ⟨3, _⟩ => ⟨S512x32, .f32⟩
  | .hbm, ⟨4, _⟩ => ⟨S32x512, .f32⟩
  | .hbm, ⟨5, _⟩ => ⟨S256x8x8x512, .f32⟩
  | .hbm, ⟨6, _⟩ => ⟨S256x64x512, .f32⟩
  | .hbm, ⟨7, _⟩ => ⟨S256x64x512, .f32⟩
  | .hbm, ⟨8, _⟩ => ⟨S256x8x8x512, .f32⟩
  | .hbm, ⟨9, _⟩ => ⟨S256x512x8x8, .f32⟩
  | .local _ .vmem, ⟨0, _⟩ => ⟨S16x64x512, .f32⟩
  | .local _ .vmem, ⟨1, _⟩ => ⟨S16x64x512, .f32⟩
  | .local _ .vmem, ⟨2, _⟩ => ⟨S512x32, .f32⟩
  | .local _ .vmem, ⟨3, _⟩ => ⟨S32x512, .f32⟩
  | .local _ .vmem, ⟨4, _⟩ => ⟨S16x64x512, .f32⟩
  | .local _ .vmem, ⟨5, _⟩ => ⟨S16x64x512, .f32⟩
  | _, _ => ⟨S256x512x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x512_S512x32_1_0 : S32x512.Transposes [1, 0] S512x32
  transposes_S512x32_S32x512_1_0 : S512x32.Transposes [1, 0] S32x512
  transposes_S256x512x8x8_S256x8x8x512_0_2_3_1 : S256x512x8x8.Transposes [0, 2, 3, 1] S256x8x8x512
  shapeCasts_S256x8x8x512_S256x64x512 : S256x8x8x512.ShapeCasts S256x64x512
  shapeCasts_S256x64x512_S256x8x8x512 : S256x64x512.ShapeCasts S256x8x8x512
  transposes_S256x8x8x512_S256x512x8x8_0_3_1_2 : S256x8x8x512.Transposes [0, 3, 1, 2] S256x512x8x8
  inb_S16x64x512_S16x64x512_0_0_0 : ∀ a, (![0, 0, 0] : Fin 3 → Nat) a + S16x64x512.size a ≤ S16x64x512.size a
  h_S16x64x512 : 0 < S16x64x512.numel
  shapeCasts_S16x64x512_S16x64x512 : S16x64x512.ShapeCasts S16x64x512
  reduces_S16x64x512_S16x512 : S16x64x512.Reduces [1] S16x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  shapeCasts_S16x512_S16x1x512 : S16x512.ShapeCasts S16x1x512
  broadcasts_S16x1x512_S16x64x512 : S16x1x512.Broadcasts S16x64x512
  dot_S16x512_S512x32_S16x32_1_0_0_1_n_n_wf : DotDims.WF S16x512 S512x32 S16x32 [1] [0] [0] [1] [] []
  dot_S16x32_S32x512_S16x512_1_0_0_1_n_n_wf : DotDims.WF S16x32 S32x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x512.size a ≤ S256x64x512.size a
  hwx0_0 : ∀ i : grid0.Coords, EltTy.bits .f32 = 32 ∨ (Rect.block (s := S256x64x512) S16x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x512.size a ≤ S256x64x512.size a
  hwx0_3 : ∀ i : grid0.Coords, EltTy.bits .f32 = 32 ∨ (Rect.block (s := S256x64x512) S16x64x512.size (cc0_transform_3 i) (hinb0_3 i)).WholeWords (EltTy.packing .f32)

variable [Facts₀]

def dot_S16x512_S512x32_S16x32_1_0_0_1_n_n : DotDims S16x512 S512x32 S16x32 where
  lhsContracting := [1]
  rhsContracting := [0]
  lhsNonContracting := [0]
  rhsNonContracting := [1]
  lhsBatch := []
  rhsBatch := []
  wf := dot_S16x512_S512x32_S16x32_1_0_0_1_n_n_wf
def dot_S16x32_S32x512_S16x512_1_0_0_1_n_n : DotDims S16x32 S32x512 S16x512 where
  lhsContracting := [1]
  rhsContracting := [0]
  lhsNonContracting := [0]
  rhsNonContracting := [1]
  lhsBatch := []
  rhsBatch := []
  wf := dot_S16x32_S32x512_S16x512_1_0_0_1_n_n_wf

abbrev win0_0 : Pipeline.Window sig grid0 :=
  Pipeline.Window.ofSpec (Memref.whole main_call0_v3) S16x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S16x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x512x8x8 : Shape := ⟨4, ![256, 512, 8, 8]⟩
abbrev S32x512 : Shape := ⟨2, ![32, 512]⟩
abbrev S512x32 : Shape := ⟨2, ![512, 32]⟩
abbrev S256x512x64 : Shape := ⟨3, ![256, 512, 64]⟩
abbrev S256x512 : Shape := ⟨2, ![256, 512]⟩
abbrev S256x256x128 : Shape := ⟨3, ![256, 256, 128]⟩
abbrev S256x256x2 : Shape := ⟨3, ![256, 256, 2]⟩
abbrev S8x512x64 : Shape := ⟨3, ![8, 512, 64]⟩
abbrev S8x512 : Shape := ⟨2, ![8, 512]⟩
abbrev S8x32 : Shape := ⟨2, ![8, 32]⟩
abbrev S8x256x128 : Shape := ⟨3, ![8, 256, 128]⟩
abbrev S8x256x2 : Shape := ⟨3, ![8, 256, 2]⟩
abbrev S8x256x1 : Shape := ⟨3, ![8, 256, 1]⟩

abbrev nBuf : Space → Nat
  | .hbm => 11
  | .vmem => 13
  | .smem => 0
  | _ => 0

abbrev bufTy : (tb : Table) → Fin (tcTables nBuf tb) → BufTy
  | .hbm, ⟨0, _⟩ => ⟨S256x512x8x8, .f32⟩
  | .hbm, ⟨1, _⟩ => ⟨S32x512, .f32⟩
  | .hbm, ⟨2, _⟩ => ⟨S512x32, .f32⟩
  | .hbm, ⟨3, _⟩ => ⟨S512x32, .f32⟩
  | .hbm, ⟨4, _⟩ => ⟨S32x512, .f32⟩
  | .hbm, ⟨5, _⟩ => ⟨S256x512x64, .f32⟩
  | .hbm, ⟨6, _⟩ => ⟨S256x512, .f32⟩
  | .hbm, ⟨7, _⟩ => ⟨S256x256x128, .f32⟩
  | .hbm, ⟨8, _⟩ => ⟨S256x256x2, .f32⟩
  | .hbm, ⟨9, _⟩ => ⟨S256x256x128, .f32⟩
  | .hbm, ⟨10, _⟩ => ⟨S256x512x8x8, .f32⟩
  | .local _ .vmem, ⟨0, _⟩ => ⟨S8x512x64, .f32⟩
  | .local _ .vmem, ⟨1, _⟩ => ⟨S8x512x64, .f32⟩
  | .local _ .vmem, ⟨2, _⟩ => ⟨S512x32, .f32⟩
  | .local _ .vmem, ⟨3, _⟩ => ⟨S32x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x256x128, .f32⟩
  | .local _ .vmem, ⟨8, _⟩ => ⟨S8x256x128, .f32⟩
  | .local _ .vmem, ⟨9, _⟩ => ⟨S8x256x2, .f32⟩
  | .local _ .vmem, ⟨10, _⟩ => ⟨S8x256x2, .f32⟩
  | .local _ .vmem, ⟨11, _⟩ => ⟨S8x256x128, .f32⟩
  | .local _ .vmem, ⟨12, _⟩ => ⟨S8x256x128, .f32⟩
  | _, _ => ⟨S256x512x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_7 : BitVec 32 := 0#32
  let v11 : BitVec 1 := Scalar.cmpi .eq arg1 c0_i32_7
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![32, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S32x512_S512x32_1_0 : S32x512.Transposes [1, 0] S512x32
  transposes_S512x32_S32x512_1_0 : S512x32.Transposes [1, 0] S32x512
  shapeCasts_S256x512x8x8_S256x512x64 : S256x512x8x8.ShapeCasts S256x512x64
  shapeCasts_S256x512x8x8_S256x256x128 : S256x512x8x8.ShapeCasts S256x256x128
  shapeCasts_S256x512_S256x256x2 : S256x512.ShapeCasts S256x256x2
  shapeCasts_S256x256x128_S256x512x8x8 : S256x256x128.ShapeCasts S256x512x8x8
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x64_S8x512x64_0_0_0 : ∀ a, (![0, 0, 0] : Fin 3 → Nat) a + S8x512x64.size a ≤ S8x512x64.size a
  h_S8x512x64 : 0 < S8x512x64.numel
  shapeCasts_S8x512x64_S8x512x64 : S8x512x64.ShapeCasts S8x512x64
  reduces_S8x512x64_S8x512 : S8x512x64.Reduces [2] S8x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S8x256x128_S8x256x128_0_0_0 : ∀ a, (![0, 0, 0] : Fin 3 → Nat) a + S8x256x128.size a ≤ S8x256x128.size a
  h_S8x256x128 : 0 < S8x256x128.numel
  shapeCasts_S8x256x128_S8x256x128 : S8x256x128.ShapeCasts S8x256x128
  inb_S8x256x2_S8x256x2_0_0_0 : ∀ a, (![0, 0, 0] : Fin 3 → Nat) a + S8x256x2.size a ≤ S8x256x2.size a
  h_S8x256x2 : 0 < S8x256x2.numel
  shapeCasts_S8x256x2_S8x256x2 : S8x256x2.ShapeCasts S8x256x2
  iota_S8x256x128_d2_w32 : S8x256x128.Iotas .tc 32 [2]
  natLt_1_32 : 1 < 32
  slices_S8x256x2_o0_0_0_S8x256x1 : S8x256x2.Slices ![0, 0, 0] S8x256x1
  slices_S8x256x2_o0_0_1_S8x256x1 : S8x256x2.Slices ![0, 0, 1] S8x256x1
  shapeCasts_S8x256x1_S8x256x1 : S8x256x1.ShapeCasts S8x256x1
  broadcasts_S8x256x1_S8x256x128 : S8x256x1.Broadcasts S8x256x128
  dot_S8x512_S512x32_S8x32_1_0_0_1_n_n_wf : DotDims.WF S8x512 S512x32 S8x32 [1] [0] [0] [1] [] []
  dot_S8x32_S32x512_S8x512_1_0_0_1_n_n_wf : DotDims.WF S8x32 S32x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x64.size a ≤ S256x512x64.size a
  hwx0_0 : ∀ i : grid0.Coords, EltTy.bits .f32 = 32 ∨ (Rect.block (s := S256x512x64) S8x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S256x512.size a
  hwx0_3 : ∀ i : grid0.Coords, EltTy.bits .f32 = 32 ∨ (Rect.block (s := S256x512) S8x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x128.size a ≤ S256x256x128.size a
  hwx1_0 : ∀ i : grid1.Coords, EltTy.bits .f32 = 32 ∨ (Rect.block (s := S256x256x128) S8x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x2.size a ≤ S256x256x2.size a
  hwx1_1 : ∀ i : grid1.Coords, EltTy.bits .f32 = 32 ∨ (Rect.block (s := S256x256x2) S8x256x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x128.size a ≤ S256x256x128.size a
  hwx1_2 : ∀ i : grid1.Coords, EltTy.bits .f32 = 32 ∨ (Rect.block (s := S256x256x128) S8x256x128.size (cc1_transform_2 i) (hinb1_2 i)).WholeWords (EltTy.packing .f32)

variable [Facts₀]

def dot_S8x512_S512x32_S8x32_1_0_0_1_n_n : DotDims S8x512 S512x32 S8x32 where
  lhsContracting := [1]
  rhsContracting := [0]
  lhsNonContracting := [0]
  rhsNonContracting := [1]
  lhsBatch := []
  rhsBatch := []
  wf := dot_S8x512_S512x32_S8x32_1_0_0_1_n_n_wf
def dot_S8x32_S32x512_S8x512_1_0_0_1_n_n : DotDims S8x32 S32x512 S8x512 where
  lhsContracting := [1]
  rhsContracting := [0]
  lhsNonContracting := [0]
  rhsNonContracting := [1]
  lhsBatch := []
  rhsBatch := []
  wf := dot_S8x32_S32x512_S8x512_1_0_0_1_n_n_wf

abbrev win0_0 : Pipeline.Window sig grid0 :=
  Pipeline.Window.ofSpec (Memref.whole main_call0_v2) S8x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_call0_v4) S8x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v5) S8x256x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v6) S8x256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Gate.lean ====
/-
  The squeeze-and-excite gate, as one function of a row of channel sums.

  For one batch row, with `p k` the sum of channel `k` over the 64 spatial positions, the gate of channel `c` is
      logistic ( Σ_j  max ( Σ_k (p k · 1/64) · w1ᵀ[k, j] , 0 ) · w2ᵀ[j, c] ).
  Both programs compute exactly this per (batch row, channel); they differ only in how many batch rows one block
  holds and in which axis of the block the spatial positions lie on. A matrix product into the zero accumulator, read
  at one entry of the result, is the plain sum over the contracted coordinate of the products of the operands'
  entries (`matmul_plain_apply`): on the extended reals nothing of the matrix unit's chunking or order is left.
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.SE

/-- A product of an [a, k] matrix by a [k, b] matrix accumulated into zero, read at the entry (p, q): the sum over the
    contracted coordinate `i` of `L[p, i] · R[i, q]`. The four hypotheses say which coordinate of the result or of the
    contraction each operand axis reads; for a printed plain product each holds by computation. -/
theorem matmul_plain_apply {a k b : ℕ} {φ₁ φ₂ : FTy}
    (d : DotDims ⟨2, ![a, k]⟩ ⟨2, ![k, b]⟩ ⟨2, ![a, b]⟩)
    (hr : d.contr.rank = 1) (hs : d.contr.size ⟨0, by omega⟩ = k)
    (hl0 : ∀ j kk, (d.lhsIdx j kk 0).val = (j 0).val)
    (hl1 : ∀ j kk, (d.lhsIdx j kk 1).val = (kk ⟨0, by omega⟩).val)
    (hr0 : ∀ j kk, (d.rhsIdx j kk 0).val = (kk ⟨0, by omega⟩).val)
    (hr1 : ∀ j kk, (d.rhsIdx j kk 1).val = (j 1).val)
    (prec : Option ContractPrecision) (L : FVec Ideal ⟨2, ![a, k]⟩ φ₁) (R : FVec Ideal ⟨2, ![k, b]⟩ φ₂)
    (p : Fin a) (q : Fin b) :
    matmul d prec L R (constant ⟨2, ![a, b]⟩ .f32 0x00000000#32) (ix2 p q) = ∑ i : Fin k, L (ix2 p i) * R (ix2 i q) := by
  show FloatOps.matmul d prec L R (constant _ .f32 0x00000000#32) (ix2 p q) = _
  rw [Ideal.matmul_constant_zero_apply, ← Equiv.sum_comp (contrEquiv1 d k hr hs).symm]
  refine Finset.sum_congr rfl fun i _ => ?_
  have e := contrEquiv1_symm_val d k hr hs i
  have hL : d.lhsIdx (ix2 p q) ((contrEquiv1 d k hr hs).symm i) = ix2 p i := by
    funext ax; apply Fin.ext
    match ax with
    | ⟨0, _⟩ => exact hl0 _ _
    | ⟨1, _⟩ => exact (hl1 _ _).trans e
  have hR : d.rhsIdx (ix2 p q) ((contrEquiv1 d k hr hs).symm i) = ix2 i q := by
    funext ax; apply Fin.ext
    match ax with
    | ⟨0, _⟩ => exact (hr0 _ _).trans e
    | ⟨1, _⟩ => exact hr1 _ _
  rw [hL, hR]

/-- The gate of channel `c` from one batch row's channel sums `p` and the two transposed weight matrices. The
    literals are kept as the words both programs print: `0x3C800000` is 1/64, `0x00000000` the zero of the ReLU. -/
def gateRow (p : Fin 512 → EReal) (w1t : Fin 512 → Fin 32 → EReal) (w2t : Fin 32 → Fin 512 → EReal) (c : Fin 512) : EReal :=
  Ideal.logistic (∑ j : Fin 32,
    max (∑ k : Fin 512, (p k * Ideal.ofBits .f32 0x3C800000#32) * w1t k j) (Ideal.ofBits .f32 0x00000000#32) * w2t j c)

end Cert.SE

end
-- ==== Proof.KernelPoint.lean ====
/-
  The fused kernel's block, entry by entry.

  A block holds 16 batch rows in the layout [row, spatial position, channel]. Entry (b, s, c) of what the body stores is
  the loaded entry times the gate of channel `c` computed from row `b`'s channel sums, the sum running over the block's
  middle axis (the 64 spatial positions).
-/
import proofs.«104303_g2000005836783008_pallasbulk_831_3_alg».proof.Proof.Gen.KernelIdeal.Skeleton
import proofs.«104303_g2000005836783008_pallasbulk_831_3_alg».proof.Proof.Gate

noncomputable section

open scoped BigOperators
open Idealize.ShloMosaic Idealize.ShloMosaic.ValueIdx

namespace Cert.KernelIdeal.SE

open Cert.KernelIdeal Cert.KernelIdeal.Gen

/-- The lane sum over the middle axis of a [16, 64, 512] block, at (b, k): the sum over the 64 positions. -/
theorem poolSum_apply (x : FVec Ideal S16x64x512 .f32) (hφ : FKind.Formats .f32)
    (hacc : (0x00000000#32 : BitVec 32) = FKind.add.neutral .f32 hφ) (b : Fin 16) (k : Fin 512) :
    multiReduction .add [1] S16x512 x 0x00000000#32 reduces_S16x64x512_S16x512 hφ hacc (ix2 b k)
      = ∑ s : Fin 64, x (ix3 b s k) := by
  refine (Ideal.multiReduction_add_single x _ reduces_S16x64x512_S16x512 hφ hacc (ix2 b k)).trans ?_
  refine Finset.sum_congr rfl fun s _ => congrArg x ?_
  funext ax; apply Fin.ext
  match ax with
  | ⟨0, _⟩ => rfl
  | ⟨1, _⟩ => rfl
  | ⟨2, _⟩ => rfl

/-- The stored block at (b, s, c): the loaded entry times the gate of channel `c` from row `b`'s channel sums. -/
theorem pay_apply (x0 : Vec Ideal S16x64x512 .f32) (x1 : Vec Ideal S512x32 .f32) (x2 : Vec Ideal S32x512 .f32)
    (b : Fin 16) (s : Fin 64) (c : Fin 512) :
    k0_pay1 (F := Ideal) x0 x1 x2 (ix3 b s c)
      = x0 (ix3 b s c) * Cert.SE.gateRow (fun k => ∑ s' : Fin 64, x0 (ix3 b s' k)) (fun k j => x1 (ix2 k j))
          (fun j c' => x2 (ix2 j c')) c := by
  unfold k0_pay1
  simp only [shapeCast_self]
  refine congrArg (x0 (ix3 b s c) * ·) ?_
  refine (broadcastTo_apply _ broadcasts_S16x1x512_S16x64x512 (ix3 b s c) (ix3 b (0 : Fin 1) c) (fun ax => ?_)).trans ?_
  · match ax with
    | ⟨0, _⟩ => rfl
    | ⟨1, _⟩ => rfl
    | ⟨2, _⟩ => rfl
  refine (shapeCast_apply _ shapeCasts_S16x512_S16x1x512 (ix3 b (0 : Fin 1) c) (ix2 b c) ?_).trans ?_
  · rw [Shape.rowMajor_val_two, Shape.rowMajor_val_three]
    show b.val * 512 + c.val = (b.val * 1 + 0) * 512 + c.val
    omega
  unfold Cert.SE.gateRow
  refine congrArg Ideal.logistic ?_
  refine (Cert.SE.matmul_plain_apply dot_S16x32_S32x512_S16x512_1_0_0_1_n_n rfl rfl (fun _ _ => rfl) (fun _ _ => rfl)
    (fun _ _ => rfl) (fun _ _ => rfl) none _ _ b c).trans ?_
  refine Finset.sum_congr rfl fun j _ => congrArg (· * x2 (ix2 j c)) ?_
  refine congrArg (max · _) ?_
  refine (Cert.SE.matmul_plain_apply dot_S16x512_S512x32_S16x32_1_0_0_1_n_n rfl rfl (fun _ _ => rfl) (fun _ _ => rfl)
    (fun _ _ => rfl) (fun _ _ => rfl) none _ _ b j).trans ?_
  refine Finset.sum_congr rfl fun k _ => congrArg (· * x1 (ix2 k j)) ?_
  refine congrArg (· * _) ?_
  exact poolSum_apply x0 _ _ b k

end Cert.KernelIdeal.SE

end
-- ==== Proof.KernelValue.lean ====
/-
  The fused kernel's run, read as values.

  The region's input is the argument viewed [batch, spatial position, channel] (a transpose, then the two spatial
  axes merged); its weights are the two transposed matrices. Point `t` of the grid takes batch rows 16t … 16t + 15,
  and what it writes back is those rows of ONE array-wide function: entry (B, s, c) is the input's entry times the
  gate of channel `c` from row `B`'s channel sums. The 16 points' blocks tile the result, so the result array ends
  holding that function; the two layout operations after the region carry it back to [batch, channel, h, w].
-/
import proofs.«104303_g2000005836783008_pallasbulk_831_3_alg».proof.Proof.Gen.KernelIdeal.Frame
import proofs.«104303_g2000005836783008_pallasbulk_831_3_alg».proof.Proof.KernelPoint
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.SE

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input and the output move along the batch axis with the point, the
    weights stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The region's three input arrays as it finds them. -/
abbrev xArr (c : Dev nD) : S256x64x512.Idx → EReal := V m c main_call0_v3
abbrev w1Arr (c : Dev nD) : S512x32.Idx → EReal := V m c main_call0_v0
abbrev w2Arr (c : Dev nD) : S32x512.Idx → EReal := V m c main_call0_v1

/-- The input block at point `t` is batch rows 16t … 16t + 15 of the input array. -/
theorem xblk_apply (c : Dev nD) (t : Fin cfg0.N) (x : S16x64x512.Idx) (k : S256x64x512.Idx)
    (hk0 : (k 0).val = 16 * t.val + (x 0).val) (hk1 : (k 1).val = (x 1).val) (hk2 : (k 2).val = (x 2).val) :
    (iblk m c 0 t : Vec Ideal S16x64x512 .f32) x = xArr m c k := by
  obtain ⟨e0, e1, e2, -⟩ := idx_facts t
  unfold iblk
  rw [View.read_apply]
  show xArr m c _ = xArr m c k
  refine congrArg (xArr m c) (funext fun a => Fin.ext ?_)
  match a with
  | ⟨0, _⟩ => show win0_0.index t (0 : Fin 3) * 16 + 1 * (x 0).val = (k 0).val; rw [e0, hk0]; omega
  | ⟨1, _⟩ => show win0_0.index t (1 : Fin 3) * 64 + 1 * (x 1).val = (k 1).val; rw [e1, hk1]; omega
  | ⟨2, _⟩ => show win0_0.index t (2 : Fin 3) * 512 + 1 * (x 2).val = (k 2).val; rw [e2, hk2]; omega

/-- Each weight block is the whole weight array, at every point. -/
theorem w1blk_apply (c : Dev nD) (t : Fin cfg0.N) (x : S512x32.Idx) :
    (iblk m c 1 t : Vec Ideal S512x32 .f32) x = w1Arr m c x := by
  obtain ⟨-, -, -, e0, e1, -⟩ := idx_facts t
  unfold iblk
  rw [View.read_apply]
  show w1Arr m c _ = w1Arr m c x
  refine congrArg (w1Arr m c) (funext fun a => Fin.ext ?_)
  match a with
  | ⟨0, _⟩ => show win0_1.index t (0 : Fin 2) * 512 + 1 * (x 0).val = (x 0).val; rw [e0]; omega
  | ⟨1, _⟩ => show win0_1.index t (1 : Fin 2) * 32 + 1 * (x 1).val = (x 1).val; rw [e1]; omega

theorem w2blk_apply (c : Dev nD) (t : Fin cfg0.N) (x : S32x512.Idx) :
    (iblk m c 2 t : Vec Ideal S32x512 .f32) x = w2Arr m c x := by
  obtain ⟨-, -, -, -, -, e0, e1, -⟩ := idx_facts t
  unfold iblk
  rw [View.read_apply]
  show w2Arr m c _ = w2Arr m c x
  refine congrArg (w2Arr m c) (funext fun a => Fin.ext ?_)
  match a with
  | ⟨0, _⟩ => show win0_2.index t (0 : Fin 2) * 32 + 1 * (x 0).val = (x 0).val; rw [e0]; omega
  | ⟨1, _⟩ => show win0_2.index t (1 : Fin 2) * 512 + 1 * (x 1).val = (x 1).val; rw [e1]; omega

/-- The result in the region's layout, at batch row `B`, position `s`, channel `c`. -/
def scaledAt (X : S256x64x512.Idx → EReal) (W1 : S512x32.Idx → EReal) (W2 : S32x512.Idx → EReal)
    (B : Fin 256) (s : Fin 64) (c : Fin 512) : EReal :=
  X (ix3 B s c) * Cert.SE.gateRow (fun k => ∑ s' : Fin 64, X (ix3 B s' k)) (fun k j => W1 (ix2 k j)) (fun j c' => W2 (ix2 j c')) c

/-- … as one array. -/
def scaled (X : S256x64x512.Idx → EReal) (W1 : S512x32.Idx → EReal) (W2 : S32x512.Idx → EReal) : S256x64x512.Idx → EReal :=
  fun i => scaledAt X W1 W2 (i 0) (i 1) (i 2)

/-- What point `t` writes back is its block of that array. -/
theorem flushed_eq (c : Dev nD) (t : Fin cfg0.N) :
    (dats m 0 c).flushed 3 t = ((cfg0.win 3).blk t).view.read (Elt Ideal) (scaled (xArr m c) (w1Arr m c) (w2Arr m c)) := by
  show (cfg0.win 3).cut (grid0.coords t) ((dats m 0 c).after 3 t) = _
  rw [after0_3]
  unfold out0_3
  rw [View.canon_unit_zero hz3]
  simp only [View.ld_unit_zero (S := S16x64x512) hz3, View.ld_unit_zero (S := S512x32) hz2, View.ld_unit_zero (S := S32x512) hz2]
  have key : ∀ y : S16x64x512.Idx,
      k0_pay1 (F := Ideal) (iblk m c 0 t) (iblk m c 1 t) (iblk m c 2 t) y
        = scaled (xArr m c) (w1Arr m c) (w2Arr m c) (((cfg0.win 3).blk t).view.emb y) := by
    intro y
    obtain ⟨b, s, k, rfl⟩ : ∃ (b : Fin 16) (s : Fin 64) (k : Fin 512), y = ix3 b s k := ⟨y 0, y 1, y 2, eq_ix3 y⟩
    obtain ⟨-, -, -, -, -, -, -, e0, e1, e2⟩ := idx_facts t
    have ht : t.val < 16 := lt_of_lt_of_eq t.isLt N_0
    have hB : 16 * t.val + b.val < 256 := by have := b.isLt; omega
    have hemb : ((cfg0.win 3).blk t).view.emb (ix3 b s k) = (ix3 (⟨16 * t.val + b.val, hB⟩ : Fin 256) s k : S256x64x512.Idx) := by
      funext a; apply Fin.ext
      match a with
      | ⟨0, _⟩ => show win0_3.index t (0 : Fin 3) * 16 + 1 * b.val = 16 * t.val + b.val; rw [e0]; omega
      | ⟨1, _⟩ => show win0_3.index t (1 : Fin 3) * 64 + 1 * s.val = s.val; rw [e1]; omega
      | ⟨2, _⟩ => show win0_3.index t (2 : Fin 3) * 512 + 1 * k.val = k.val; rw [e2]; omega
    rw [hemb]
    refine (pay_apply (iblk m c 0 t) (iblk m c 1 t) (iblk m c 2 t) b s k).trans ?_
    show _ = scaledAt (xArr m c) (w1Arr m c) (w2Arr m c) ⟨16 * t.val + b.val, hB⟩ s k
    unfold scaledAt
    have hx : ∀ (s' : Fin 64) (k' : Fin 512), (iblk m c 0 t : Vec Ideal S16x64x512 .f32) (ix3 b s' k')
        = xArr m c (ix3 (⟨16 * t.val + b.val, hB⟩ : Fin 256) s' k') := fun s' k' => xblk_apply m c t _ _ rfl rfl rfl
    have h1 : ∀ (k' : Fin 512) (j : Fin 32), (iblk m c 1 t : Vec Ideal S512x32 .f32) (ix2 k' j) = w1Arr m c (ix2 k' j) :=
      fun k' j => w1blk_apply m c t _
    have h2 : ∀ (j : Fin 32) (c' : Fin 512), (iblk m c 2 t : Vec Ideal S32x512 .f32) (ix2 j c') = w2Arr m c (ix2 j c') :=
      fun j c' => w2blk_apply m c t _
    simp only [hx, h1, h2]
  exact funext fun j => key j

/-- An index of the result array is in point `t`'s block iff each coordinate is in the block's range. -/
theorem mem_blk (t : Fin cfg0.N) (i : S256x64x512.Idx) :
    i ∈ ((cfg0.win 3).blk t).view.set ↔ ∀ a : Fin 3, win0_3.index t a * S16x64x512.size a ≤ (i a).val ∧ (i a).val < win0_3.index t a * S16x64x512.size a + S16x64x512.size a := by
  show i ∈ ((View.whole main_call0_v4).slice (win0_3.rect t)).set ↔ _
  rw [View.set_slice_whole, Rect.mem_set_unit]
  exact Iff.rfl

/-- The result array after the region: the 16 points' blocks tile it (row `B` is in the block of point `B / 16`). -/
theorem final (c : Dev nD) : (dats m 0 c).arrAt 3 cfg0.N = scaled (xArr m c) (w1Arr m c) (w2Arr m c) :=
  (dats m 0 c).arrAt_eq_of_cover 3 (scaled (xArr m c) (w1Arr m c) (w2Arr m c)) (fun t _ => flushed_eq m c t) fun i => by
    have h0 : (i 0).val < 256 := (i 0).isLt
    have h1 : (i 1).val < 64 := (i 1).isLt
    have h2 : (i 2).val < 512 := (i 2).isLt
    have hN : cfg0.N = 16 := N_0
    refine ⟨⟨(i 0).val / 16, by rw [hN]; omega⟩, flush0_3 _, ?_⟩
    rw [mem_blk]
    obtain ⟨-, -, -, -, -, -, -, e0, e1, e2⟩ := idx_facts ⟨(i 0).val / 16, by rw [hN]; omega⟩
    intro a
    match a with
    | ⟨0, _⟩ => show win0_3.index _ (0 : Fin 3) * 16 ≤ (i 0).val ∧ (i 0).val < win0_3.index _ (0 : Fin 3) * 16 + 16; rw [e0]; dsimp only; omega
    | ⟨1, _⟩ => show win0_3.index _ (1 : Fin 3) * 64 ≤ (i 1).val ∧ (i 1).val < win0_3.index _ (1 : Fin 3) * 64 + 64; rw [e1]; omega
    | ⟨2, _⟩ => show win0_3.index _ (2 : Fin 3) * 512 ≤ (i 2).val ∧ (i 2).val < win0_3.index _ (2 : Fin 3) * 512 + 512; rw [e2]; omega

end Cert.KernelIdeal.SE

end
-- ==== Proof.SeBlock.lean ====
/-
  The squeeze-and-excite block as one function of its three arguments.

  Entry (B, c, h, w) of the result is the input's entry times the gate of channel `c` of batch row `B`; the gate's
  channel sums run over the 64 spatial positions, position `s` being (h, w) = (s / 8, s mod 8); the weights enter
  transposed, as both programs transpose them before any kernel runs.
-/
import proofs.«104303_g2000005836783008_pallasbulk_831_3_alg».proof.Proof.Gate

noncomputable section

open scoped BigOperators
open Idealize.ShloMosaic Idealize.ShloMosaic.ValueIdx

namespace Cert.SE

/-- The result at batch row `B`, channel `c`, position (h, w). -/
def seAt (x : (⟨4, ![256, 512, 8, 8]⟩ : Shape).Idx → EReal) (w1 : (⟨2, ![32, 512]⟩ : Shape).Idx → EReal)
    (w2 : (⟨2, ![512, 32]⟩ : Shape).Idx → EReal) (B : Fin 256) (c : Fin 512) (h w : Fin 8) : EReal :=
  x (ix4 B c h w) *
    gateRow (fun k => ∑ s : Fin 64, x (ix4 B k (⟨s.val / 8, by have := s.isLt; omega⟩ : Fin 8) (⟨s.val % 8, by omega⟩ : Fin 8)))
      (fun k j => w1 (ix2 j k)) (fun j c' => w2 (ix2 c' j)) c

/-- … as one array. -/
def seOut (x : (⟨4, ![256, 512, 8, 8]⟩ : Shape).Idx → EReal) (w1 : (⟨2, ![32, 512]⟩ : Shape).Idx → EReal)
    (w2 : (⟨2, ![512, 32]⟩ : Shape).Idx → EReal) : (⟨4, ![256, 512, 8, 8]⟩ : Shape).Idx → EReal :=
  fun i => seAt x w1 w2 (i 0) (i 1) (i 2) (i 3)

end Cert.SE

end
-- ==== Proof.KernelRun.lean ====
/-
  The fused kernel's whole run: its result is the squeeze-and-excite block of its arguments.

  Before the region the host transposes the two weight matrices and views the input [batch, position, channel]: a
  transpose to [batch, h, w, channel], then h and w merged, so that position `s` of channel `k` is the input at
  (k, s / 8, s mod 8). After the region it splits the positions again and transposes back, so that entry (B, c, h, w) of
  the result is entry (B, 8h + w, c) of the region's output array.
-/
import proofs.«104303_g2000005836783008_pallasbulk_831_3_alg».proof.Proof.KernelValue
import proofs.«104303_g2000005836783008_pallasbulk_831_3_alg».proof.Proof.SeBlock

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.SE

open Cert.KernelIdeal Cert.KernelIdeal.Gen

variable (m : (ℓ : Loc nD τ sig) → Buf (Elt Ideal) ℓ) (ρ : Dev nD → PrngReg)

/-- The three arguments as arrays. -/
abbrev argX (c : Dev nD) : S256x512x8x8.Idx → EReal := m ((c : Thread nD τ).loc main_arg0)
abbrev argW1 (c : Dev nD) : S32x512.Idx → EReal := m ((c : Thread nD τ).loc main_arg1)
abbrev argW2 (c : Dev nD) : S512x32.Idx → EReal := m ((c : Thread nD τ).loc main_arg2)

/-! ## What the host leaves in the region's input arrays -/

theorem w1Arr_eq (c : Dev nD) : w1Arr m c = transpose S512x32 [1, 0] (argW1 m c) transposes_S32x512_S512x32_1_0 := by
  show StableHlo.after hostOps0 (fun b => m (c, b)) (Proc.devRef .tc main_call0_v0) = _
  after_results
  rfl

theorem w2Arr_eq (c : Dev nD) : w2Arr m c = transpose S32x512 [1, 0] (argW2 m c) transposes_S512x32_S32x512_1_0 := by
  show StableHlo.after hostOps0 (fun b => m (c, b)) (Proc.devRef .tc main_call0_v1) = _
  after_results
  rfl

theorem xArr_eq (c : Dev nD) : xArr m c = shapeCast S256x64x512
    (transpose S256x8x8x512 [0, 2, 3, 1] (argX m c) transposes_S256x512x8x8_S256x8x8x512_0_2_3_1) shapeCasts_S256x8x8x512_S256x64x512 := by
  show StableHlo.after hostOps0 (fun b => m (c, b)) (Proc.devRef .tc main_call0_v3) = _
  after_results
  rfl

/-- The transposed first weight matrix at (k, j) is the argument at (j, k). -/
theorem w1Arr_apply (c : Dev nD) (k : Fin 512) (j : Fin 32) : w1Arr m c (ix2 k j) = argW1 m c (ix2 j k) := by
  rw [w1Arr_eq]
  refine transpose_apply [1, 0] _ transposes_S32x512_S512x32_1_0 (ix2 k j) (ix2 j k) (fun b => ?_)
  match b with
  | ⟨0, _⟩ => rfl
  | ⟨1, _⟩ => rfl

theorem w2Arr_apply (c : Dev nD) (j : Fin 32) (c' : Fin 512) : w2Arr m c (ix2 j c') = argW2 m c (ix2 c' j) := by
  rw [w2Arr_eq]
  refine transpose_apply [1, 0] _ transposes_S512x32_S32x512_1_0 (ix2 j c') (ix2 c' j) (fun b => ?_)
  match b with
  | ⟨0, _⟩ => rfl
  | ⟨1, _⟩ => rfl

/-- The region's input at (B, s, k) is the argument at (B, k, s / 8, s mod 8). -/
theorem xArr_apply (c : Dev nD) (B : Fin 256) (s : Fin 64) (k : Fin 512) (h w : Fin 8)
    (hs : s.val = 8 * h.val + w.val) : xArr m c (ix3 B s k) = argX m c (ix4 B k h w) := by
  rw [xArr_eq]
  refine (shapeCast_apply _ shapeCasts_S256x8x8x512_S256x64x512 (ix3 B s k) (ix4 B h w k) ?_).trans ?_
  · rw [Shape.rowMajor_val_four, Shape.rowMajor_val_three]
    show ((B.val * 8 + h.val) * 8 + w.val) * 512 + k.val = (B.val * 64 + s.val) * 512 + k.val
    omega
  refine transpose_apply [0, 2, 3, 1] _ transposes_S256x512x8x8_S256x8x8x512_0_2_3_1 (ix4 B h w k) (ix4 B k h w) (fun b => ?_)
  match b with
  | ⟨0, _⟩ => rfl
  | ⟨1, _⟩ => rfl
  | ⟨2, _⟩ => rfl
  | ⟨3, _⟩ => rfl

/-! ## The two layout operations after the region -/

/-- From the region's layout [batch, position, channel] back to [batch, channel, h, w]. -/
def back (A : S256x64x512.Idx → EReal) : S256x512x8x8.Idx → EReal :=
  transpose S256x512x8x8 [0, 3, 1, 2] (shapeCast S256x8x8x512 A shapeCasts_S256x64x512_S256x8x8x512)
    transposes_S256x8x8x512_S256x512x8x8_0_3_1_2

theorem back_apply (A : S256x64x512.Idx → EReal) (B : Fin 256) (c : Fin 512) (h w : Fin 8) (s : Fin 64)
    (hs : s.val = 8 * h.val + w.val) : back A (ix4 B c h w) = A (ix3 B s c) := by
  unfold back
  refine (transpose_apply [0, 3, 1, 2] _ transposes_S256x8x8x512_S256x512x8x8_0_3_1_2 (ix4 B c h w) (ix4 B h w c) (fun b => ?_)).trans ?_
  · match b with
    | ⟨0, _⟩ => rfl
    | ⟨1, _⟩ => rfl
    | ⟨2, _⟩ => rfl
    | ⟨3, _⟩ => rfl
  refine shapeCast_apply _ shapeCasts_S256x64x512_S256x8x8x512 (ix4 B h w c) (ix3 B s c) ?_
  rw [Shape.rowMajor_val_four, Shape.rowMajor_val_three]
  show (B.val * 64 + s.val) * 512 + c.val = ((B.val * 8 + h.val) * 8 + w.val) * 512 + c.val
  omega

/-- The result buffer after the whole program: the region's output array carried back. -/
theorem tail_eq (c : Dev nD) :
    Pipeline.afterTail₀ cfgs (dats m) 0 (V0 m) [hostOps1] c main_v0 = back (scaled (xArr m c) (w1Arr m c) (w2Arr m c)) := by
  unfold Pipeline.afterTail₀
  show StableHlo.after hostOps1 _ (Proc.devRef .tc main_v0) = _
  after_results
  have hW : Pipeline.withArrays spec0 c (V0 m c) (fun w => (dats m 0 c).arrAt w cfg0.N) (Proc.devRef .tc main_call0_v4)
      = scaled (xArr m c) (w1Arr m c) (w2Arr m c) :=
    (Pipeline.withArrays_arr spec0 launch0.win.arr_inj c (V0 m c) (fun w => (dats m 0 c).arrAt w cfg0.N) 3).trans (final m c)
  exact congrArg back hW

/-! ## The result is the block of the arguments -/

theorem result_eq (c : Dev nD) :
    back (scaled (xArr m c) (w1Arr m c) (w2Arr m c)) = Cert.SE.seOut (argX m c) (argW1 m c) (argW2 m c) := by
  funext i
  obtain ⟨B, c', h, w, rfl⟩ : ∃ (B : Fin 256) (c' : Fin 512) (h w : Fin 8), i = ix4 B c' h w := ⟨i 0, i 1, i 2, i 3, eq_ix4 i⟩
  have hh : h.val < 8 := h.isLt
  have hw : w.val < 8 := w.isLt
  rw [back_apply _ B c' h w ⟨8 * h.val + w.val, by omega⟩ rfl]
  show scaledAt (xArr m c) (w1Arr m c) (w2Arr m c) B ⟨8 * h.val + w.val, by omega⟩ c' = Cert.SE.seAt (argX m c) (argW1 m c) (argW2 m c) B c' h w
  unfold scaledAt Cert.SE.seAt
  rw [xArr_apply m c B ⟨8 * h.val + w.val, by omega⟩ c' h w rfl]
  have hx : ∀ (s' : Fin 64) (k : Fin 512), xArr m c (ix3 B s' k)
      = argX m c (ix4 B k (⟨s'.val / 8, by have := s'.isLt; omega⟩ : Fin 8) (⟨s'.val % 8, by omega⟩ : Fin 8)) :=
    fun s' k => xArr_apply m c B s' k _ _ (by show s'.val = 8 * (s'.val / 8) + s'.val % 8; omega)
  have h1 : ∀ (k : Fin 512) (j : Fin 32), w1Arr m c (ix2 k j) = argW1 m c (ix2 j k) := fun k j => w1Arr_apply m c k j
  have h2 : ∀ (j : Fin 32) (c'' : Fin 512), w2Arr m c (ix2 j c'') = argW2 m c (ix2 c'' j) := fun j c'' => w2Arr_apply m c j c''
  simp only [hx, h1, h2]

/-- The run, read: the result at the block of the arguments, the arguments unchanged. -/
theorem run : θ_run defs (onTc (τ := τ) (main (F := Ideal))) ⟨m, fun _ => 0, ρ⟩ fun r => ∀ c : Dev nD,
      r.2.mem ((c.tc : Thread nD τ).loc main_v0) = Cert.SE.seOut (argX m c) (argW1 m c) (argW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(((h c).2 main_v0 (Pipeline.mem_restRefs_of main_v0 (by decide) (by decide))).trans (tail_eq m c)).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.SE

end
-- ==== Proof.RefGatePoint.lean ====
/-
  The reference's first pass, entry by entry.

  A block holds 8 batch rows in the layout [row, channel, spatial position]. At every grid point the accumulator is
  zeroed, the sums over the last axis (the 64 positions) are added to it, and the gate is computed from it; so entry
  (b, c) of the stored gate block is the gate of channel `c` from row `b`'s channel sums, the zero the accumulator
  started from dropping out of the sum.
-/
import proofs.«104303_g2000005836783008_pallasbulk_831_3_alg».proof.Proof.Gen.ReferenceIdeal.Skeleton
import proofs.«104303_g2000005836783008_pallasbulk_831_3_alg».proof.Proof.Gate

noncomputable section

open scoped BigOperators
open Idealize.ShloMosaic Idealize.ShloMosaic.ValueIdx

namespace Cert.ReferenceIdeal.SE

open Cert.ReferenceIdeal Cert.ReferenceIdeal.Gen

/-- The lane sum over the last axis of a [8, 512, 64] block, at (b, k): the sum over the 64 positions. -/
theorem poolSum_apply (x : FVec Ideal S8x512x64 .f32) (hφ : FKind.Formats .f32)
    (hacc : (0x00000000#32 : BitVec 32) = FKind.add.neutral .f32 hφ) (b : Fin 8) (k : Fin 512) :
    multiReduction .add [2] S8x512 x 0x00000000#32 reduces_S8x512x64_S8x512 hφ hacc (ix2 b k)
      = ∑ s : Fin 64, x (ix3 b k s) := by
  refine (Ideal.multiReduction_add_single x _ reduces_S8x512x64_S8x512 hφ hacc (ix2 b k)).trans ?_
  refine Finset.sum_congr rfl fun s _ => congrArg x ?_
  funext ax; apply Fin.ext
  match ax with
  | ⟨0, _⟩ => rfl
  | ⟨1, _⟩ => rfl
  | ⟨2, _⟩ => rfl

/-- The accumulator after the point's one update, from the zeroed accumulator: the channel sums. -/
theorem acc_apply (x0 : Vec Ideal S8x512x64 .f32) (b : Fin 8) (k : Fin 512) :
    k0_pay2 (F := Ideal) x0 (k0_pay1 (F := Ideal)) (ix2 b k) = ∑ s : Fin 64, x0 (ix3 b k s) := by
  unfold k0_pay2 k0_pay1
  simp only [shapeCast_self]
  refine (congrArg (Ideal.ofBits .f32 0x00000000#32 + ·) (poolSum_apply x0 _ _ b k)).trans ?_
  rw [Ideal.ofBits_zero_f32, zero_add]

/-- The stored gate block at (b, c): the gate of channel `c` from the accumulator's row `b`. -/
theorem gatePay_apply (a : Vec Ideal S8x512 .f32) (x1 : Vec Ideal S512x32 .f32) (x2 : Vec Ideal S32x512 .f32)
    (b : Fin 8) (c : Fin 512) :
    k0_pay3 (F := Ideal) a x1 x2 (ix2 b c)
      = Cert.SE.gateRow (fun k => a (ix2 b k)) (fun k j => x1 (ix2 k j)) (fun j c' => x2 (ix2 j c')) c := by
  unfold k0_pay3
  simp only [shapeCast_self]
  unfold Cert.SE.gateRow
  refine congrArg Ideal.logistic ?_
  refine (Cert.SE.matmul_plain_apply dot_S8x32_S32x512_S8x512_1_0_0_1_n_n rfl rfl (fun _ _ => rfl) (fun _ _ => rfl)
    (fun _ _ => rfl) (fun _ _ => rfl) none _ _ b c).trans ?_
  refine Finset.sum_congr rfl fun j _ => congrArg (· * x2 (ix2 j c)) ?_
  refine congrArg (max · _) ?_
  exact Cert.SE.matmul_plain_apply dot_S8x512_S512x32_S8x32_1_0_0_1_n_n rfl rfl (fun _ _ => rfl) (fun _ _ => rfl)
    (fun _ _ => rfl) (fun _ _ => rfl) none _ _ b j

/-- Together: the gate block a point stores, from the point's input block. -/
theorem gate_apply (x0 : Vec Ideal S8x512x64 .f32) (x1 : Vec Ideal S512x32 .f32) (x2 : Vec Ideal S32x512 .f32)
    (b : Fin 8) (c : Fin 512) :
    k0_pay3 (F := Ideal) (k0_pay2 (F := Ideal) x0 (k0_pay1 (F := Ideal))) x1 x2 (ix2 b c)
      = Cert.SE.gateRow (fun k => ∑ s : Fin 64, x0 (ix3 b k s)) (fun k j => x1 (ix2 k j)) (fun j c' => x2 (ix2 j c')) c := by
  rw [gatePay_apply]
  exact congrArg (fun p => Cert.SE.gateRow p _ _ c) (funext fun k => acc_apply x0 b k)

end Cert.ReferenceIdeal.SE

end
-- ==== Proof.RefScalePoint.lean ====
/-
  The reference's second pass, entry by entry.

  A block holds 8 batch rows, each as 256 rows of 128 lanes: lane `l` of row `r` is spatial position `l mod 64` of
  channel `2r + l / 64`. The gate block has the two gates of each row side by side. The body compares `l / 64` with 1
  (the floor division written with its sign corrections, none of which fires on 0 ≤ l < 128) and picks the second gate
  on the upper 64 lanes, the first on the lower; entry (b, r, l) of what it stores is the loaded entry times gate
  `l / 64` of row `r`.
-/
import proofs.«104303_g2000005836783008_pallasbulk_831_3_alg».proof.Proof.Gen.ReferenceIdeal.Skeleton
import Idealize.ShloMosaic.Lib.ValueIdx
import Idealize.ShloMosaic.Lib.Pipeline.Value

noncomputable section

open Idealize.ShloMosaic Idealize.ShloMosaic.ValueIdx

namespace Cert.ReferenceIdeal.SE

open Cert.ReferenceIdeal Cert.ReferenceIdeal.Gen

/-- The body's test "this lane belongs to the row's second channel", as a function of the lane number's word. -/
def upperLane (w : BitVec 32) : BitVec 1 :=
  IntOp.cmpi .eq
    (Scalar.select
      (IntOp.andi
        (IntOp.cmpi .ne
          (IntOp.subi ((IntOp.cmpi .sgt w 0#32).setWidth 32) ((IntOp.cmpi .slt w 0#32).setWidth 32))
          (Scalar.subi (Scalar.extui (Scalar.cmpi .sgt 64#32 0#32)) (Scalar.extui (Scalar.cmpi .slt 64#32 0#32))))
        (IntOp.cmpi .ne (IntOp.remsi .vector w 64#32) 0#32))
      (IntOp.subi (IntOp.divsi .vector w 64#32) 1#32)
      (IntOp.divsi .vector w 64#32))
    1#32

/-- On the 128 lanes it is the test `64 ≤ l`. -/
theorem upperLane_spec : ∀ l : Fin 128, upperLane (BitVec.ofNat 32 l.val) = if 64 ≤ l.val then 1#1 else 0#1 := by
  decide +kernel

/-- The stored block at (b, r, l): the loaded entry times gate `l / 64` of row `r`. -/
theorem scale_apply (x0 : Vec Ideal S8x256x128 .f32) (x1 : Vec Ideal S8x256x2 .f32)
    (b : Fin 8) (r : Fin 256) (l : Fin 128) (g : Fin 2) (hg : g.val = l.val / 64) :
    k1_pay1 (F := Ideal) x0 x1 (ix3 b r l) = x0 (ix3 b r l) * x1 (ix3 b r g) := by
  unfold k1_pay1
  simp only [shapeCast_self]
  rw [mulf_apply, select_apply]
  refine congrArg (x0 (ix3 b r l) * ·) ?_
  have hbit : ∀ (c1 : BitVec 1) (A B : EReal), c1 = upperLane (BitVec.ofNat 32 l.val) →
      Scalar.select c1 A B = if 64 ≤ l.val then A else B := by
    intro c1 A B h
    rw [h, upperLane_spec l]
    by_cases hl : 64 ≤ l.val
    · rw [if_pos hl, if_pos hl]; exact select_one A B
    · rw [if_neg hl, if_neg hl]; exact select_zero A B
  refine (hbit _ _ _ ?_).trans ?_
  · show _ = upperLane (BitVec.ofNat 32 ((ix3 b r l) (2 : Fin 3)).val)
    rw [← iota_single_apply .tc S8x256x128 32 (2 : Fin 3) iota_S8x256x128_d2_w32 (ix3 b r l)]
    rfl
  · have hl128 : l.val < 128 := l.isLt
    by_cases hl : 64 ≤ l.val
    · rw [if_pos hl]
      refine (broadcastTo_apply _ broadcasts_S8x256x1_S8x256x128 (ix3 b r l) (ix3 b r (0 : Fin 1)) (fun ax => ?_)).trans ?_
      · match ax with
        | ⟨0, _⟩ => rfl
        | ⟨1, _⟩ => rfl
        | ⟨2, _⟩ => rfl
      refine extractStridedSlice_apply _ _ slices_S8x256x2_o0_0_1_S8x256x1 (ix3 b r (0 : Fin 1)) (ix3 b r g) (fun ax => ?_)
      match ax with
      | ⟨0, _⟩ => show b.val = 0 + b.val; omega
      | ⟨1, _⟩ => show r.val = 0 + r.val; omega
      | ⟨2, _⟩ => show g.val = 1 + 0; omega
    · rw [if_neg hl]
      refine (broadcastTo_apply _ broadcasts_S8x256x1_S8x256x128 (ix3 b r l) (ix3 b r (0 : Fin 1)) (fun ax => ?_)).trans ?_
      · match ax with
        | ⟨0, _⟩ => rfl
        | ⟨1, _⟩ => rfl
        | ⟨2, _⟩ => rfl
      refine extractStridedSlice_apply _ _ slices_S8x256x2_o0_0_0_S8x256x1 (ix3 b r (0 : Fin 1)) (ix3 b r g) (fun ax => ?_)
      match ax with
      | ⟨0, _⟩ => show b.val = 0 + b.val; omega
      | ⟨1, _⟩ => show r.val = 0 + r.val; omega
      | ⟨2, _⟩ => show g.val = 0 + 0; omega

end Cert.ReferenceIdeal.SE

end
-- ==== Proof.RefRegions.lean ====
/-
  The reference's two regions, read as values, each at whatever contents `V` it is entered from.

  First region: point `t` takes batch rows 8t … 8t + 7 of the input viewed [batch, channel, position]. The body
  zeroes its accumulator, adds the sums over the positions, and stores the gate computed from it, so what the point
  writes back is its rows of the array of gates: entry (B, c) is the gate of channel `c` from row `B`'s channel sums.
  Second region: point `t` takes the same rows of the input viewed [batch, 256 rows, 128 lanes] and of the gates
  viewed [batch, 256 rows, 2]; what it writes back is its rows of the array whose entry (B, r, l) is the input's entry
  times gate `l / 64` of row `r`. In both regions the 32 points' blocks tile the result array.
-/
import proofs.«104303_g2000005836783008_pallasbulk_831_3_alg».proof.Proof.Gen.ReferenceIdeal.Frame
import proofs.«104303_g2000005836783008_pallasbulk_831_3_alg».proof.Proof.RefGatePoint
import proofs.«104303_g2000005836783008_pallasbulk_831_3_alg».proof.Proof.RefScalePoint
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.SE

open Cert.ReferenceIdeal Cert.ReferenceIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The first region: the gates -/

/-- What a point leaves in the gate window's buffer: the gate payload of the accumulator payload of the zero payload.
    The run stores the zero block, reads it back, stores the updated sums, reads those back, and stores the gate: each
    read through the whole buffer of what was last stored through the whole buffer is that store's payload. -/
theorem gateOut_eq (c : Dev nD) (i : grid0.Coords) (arg2 : Memref sig .tc .vmem S8x512x64 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S8x512 .f32) (harg6 : arg6.IsWhole) (hc0 : cond0_0 i) (hc1 : cond0_1 i)
    (x0 : Vec Ideal S8x512x64 .f32) (x1 : Vec Ideal S512x32 .f32) (x2 : Vec Ideal S32x512 .f32) :
    out0_A_3 (F := Ideal) c i arg2 harg2 arg3 harg3 arg4 harg4 arg5 harg5 arg6 harg6 hc0 hc1 x0 x1 x2
      = k0_pay3 (F := Ideal) (k0_pay2 (F := Ideal) x0 (k0_pay1 (F := Ideal))) x1 x2 := by
  unfold out0_A_3
  rw [View.read_writes_eq_canon _ _ _ (cover0_A_3 c i arg2 harg2 arg3 harg3 arg4 harg4 arg5 harg5 arg6 harg6 hc0 hc1 x0 x1 x2)]
  unfold kernelRun0_A
  dsimp only
  sl_unfold_words
  rw [View.canon_unit_zero (S := S8x512) hz2]
  simp only [View.readCov_cons_toLoadRect, View.readAt_eq_ld, harg2.read_unread, harg3.read_unread, harg4.read_unread,
    View.ld_unit_zero (S := S8x512x64) hz3, View.ld_unit_zero (S := S512x32) hz2, View.ld_unit_zero (S := S32x512) hz2]

/-- The printed index maps of the first region over its grid. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

abbrev x3Arr (c : Dev nD) : S256x512x64.Idx → EReal := V c main_call0_v2
abbrev w1Arr (c : Dev nD) : S512x32.Idx → EReal := V c main_call0_v0
abbrev w2Arr (c : Dev nD) : S32x512.Idx → EReal := V c main_call0_v1

theorem x3blk_apply (c : Dev nD) (t : Fin cfg0.N) (x : S8x512x64.Idx) (k : S256x512x64.Idx)
    (hk0 : (k 0).val = 8 * t.val + (x 0).val) (hk1 : (k 1).val = (x 1).val) (hk2 : (k 2).val = (x 2).val) :
    (iblk0 V c 0 t : Vec Ideal S8x512x64 .f32) x = x3Arr V c k := by
  obtain ⟨e0, e1, e2, -⟩ := idx_facts0 t
  unfold iblk0
  rw [View.read_apply]
  show x3Arr V c _ = x3Arr V c k
  refine congrArg (x3Arr V c) (funext fun a => Fin.ext ?_)
  match a with
  | ⟨0, _⟩ => show win0_0.index t (0 : Fin 3) * 8 + 1 * (x 0).val = (k 0).val; rw [e0, hk0]; omega
  | ⟨1, _⟩ => show win0_0.index t (1 : Fin 3) * 512 + 1 * (x 1).val = (k 1).val; rw [e1, hk1]; omega
  | ⟨2, _⟩ => show win0_0.index t (2 : Fin 3) * 64 + 1 * (x 2).val = (k 2).val; rw [e2, hk2]; omega

theorem w1blk_apply (c : Dev nD) (t : Fin cfg0.N) (x : S512x32.Idx) :
    (iblk0 V c 1 t : Vec Ideal S512x32 .f32) x = w1Arr V c x := by
  obtain ⟨-, -, -, e0, e1, -⟩ := idx_facts0 t
  unfold iblk0
  rw [View.read_apply]
  show w1Arr V c _ = w1Arr V c x
  refine congrArg (w1Arr V c) (funext fun a => Fin.ext ?_)
  match a with
  | ⟨0, _⟩ => show win0_1.index t (0 : Fin 2) * 512 + 1 * (x 0).val = (x 0).val; rw [e0]; omega
  | ⟨1, _⟩ => show win0_1.index t (1 : Fin 2) * 32 + 1 * (x 1).val = (x 1).val; rw [e1]; omega

theorem w2blk_apply (c : Dev nD) (t : Fin cfg0.N) (x : S32x512.Idx) :
    (iblk0 V c 2 t : Vec Ideal S32x512 .f32) x = w2Arr V c x := by
  obtain ⟨-, -, -, -, -, e0, e1, -⟩ := idx_facts0 t
  unfold iblk0
  rw [View.read_apply]
  show w2Arr V c _ = w2Arr V c x
  refine congrArg (w2Arr V c) (funext fun a => Fin.ext ?_)
  match a with
  | ⟨0, _⟩ => show win0_2.index t (0 : Fin 2) * 32 + 1 * (x 0).val = (x 0).val; rw [e0]; omega
  | ⟨1, _⟩ => show win0_2.index t (1 : Fin 2) * 512 + 1 * (x 1).val = (x 1).val; rw [e1]; omega

/-- The gate of channel `c` of batch row `B`, from the input viewed [batch, channel, position]. -/
def gatesAt (X : S256x512x64.Idx → EReal) (W1 : S512x32.Idx → EReal) (W2 : S32x512.Idx → EReal) (B : Fin 256) (c : Fin 512) : EReal :=
  Cert.SE.gateRow (fun k => ∑ s : Fin 64, X (ix3 B k s)) (fun k j => W1 (ix2 k j)) (fun j c' => W2 (ix2 j c')) c

def gates (X : S256x512x64.Idx → EReal) (W1 : S512x32.Idx → EReal) (W2 : S32x512.Idx → EReal) : S256x512.Idx → EReal :=
  fun i => gatesAt X W1 W2 (i 0) (i 1)

theorem flushed0_eq (c : Dev nD) (t : Fin cfg0.N) :
    (dat0 V c).flushed 3 t = ((cfg0.win 3).blk t).view.read (Elt Ideal) (gates (x3Arr V c) (w1Arr V c) (w2Arr V c)) := by
  show (cfg0.win 3).cut (grid0.coords t) ((dat0 V c).after 3 t) = _
  rw [after0_3]
  unfold outsAt0
  rw [gateOut_eq c (grid0.coords t) (ms0_0 t) (hs0_0 t) (ms0_1 t) (hs0_1 t) (ms0_2 t) (hs0_2 t) (ms0_3 t) (hs0_3 t) scM0_0
    (Memref.isWhole_whole _) (hcond0_0 t) (hcond0_1 t) (iblk0 V c 0 t) (iblk0 V c 1 t) (iblk0 V c 2 t)]
  have key : ∀ y : S8x512.Idx,
      k0_pay3 (F := Ideal) (k0_pay2 (F := Ideal) (iblk0 V c 0 t) (k0_pay1 (F := Ideal))) (iblk0 V c 1 t) (iblk0 V c 2 t) y
        = gates (x3Arr V c) (w1Arr V c) (w2Arr V c) (((cfg0.win 3).blk t).view.emb y) := by
    intro y
    obtain ⟨b, k, rfl⟩ : ∃ (b : Fin 8) (k : Fin 512), y = ix2 b k := ⟨y 0, y 1, eq_ix2 y⟩
    obtain ⟨-, -, -, -, -, -, -, e0, e1⟩ := idx_facts0 t
    have ht : t.val < 32 := lt_of_lt_of_eq t.isLt N_0
    have hB : 8 * t.val + b.val < 256 := by have := b.isLt; omega
    have hemb : ((cfg0.win 3).blk t).view.emb (ix2 b k) = (ix2 (⟨8 * t.val + b.val, hB⟩ : Fin 256) k : S256x512.Idx) := by
      funext a; apply Fin.ext
      match a with
      | ⟨0, _⟩ => show win0_3.index t (0 : Fin 2) * 8 + 1 * b.val = 8 * t.val + b.val; rw [e0]; omega
      | ⟨1, _⟩ => show win0_3.index t (1 : Fin 2) * 512 + 1 * k.val = k.val; rw [e1]; omega
    rw [hemb]
    refine (gate_apply (iblk0 V c 0 t) (iblk0 V c 1 t) (iblk0 V c 2 t) b k).trans ?_
    show _ = gatesAt (x3Arr V c) (w1Arr V c) (w2Arr V c) ⟨8 * t.val + b.val, hB⟩ k
    unfold gatesAt
    have hx : ∀ (k' : Fin 512) (s' : Fin 64), (iblk0 V c 0 t : Vec Ideal S8x512x64 .f32) (ix3 b k' s')
        = x3Arr V c (ix3 (⟨8 * t.val + b.val, hB⟩ : Fin 256) k' s') := fun k' s' => x3blk_apply V c t _ _ rfl rfl rfl
    have h1 : ∀ (k' : Fin 512) (j : Fin 32), (iblk0 V c 1 t : Vec Ideal S512x32 .f32) (ix2 k' j) = w1Arr V c (ix2 k' j) :=
      fun k' j => w1blk_apply V c t _
    have h2 : ∀ (j : Fin 32) (c' : Fin 512), (iblk0 V c 2 t : Vec Ideal S32x512 .f32) (ix2 j c') = w2Arr V c (ix2 j c') :=
      fun j c' => w2blk_apply V c t _
    simp only [hx, h1, h2]
  exact funext fun j => key j

theorem mem_blk0 (t : Fin cfg0.N) (i : S256x512.Idx) :
    i ∈ ((cfg0.win 3).blk t).view.set ↔ ∀ a : Fin 2, win0_3.index t a * S8x512.size a ≤ (i a).val ∧ (i a).val < win0_3.index t a * S8x512.size a + S8x512.size a := by
  show i ∈ ((View.whole main_call0_v3).slice (win0_3.rect t)).set ↔ _
  rw [View.set_slice_whole, Rect.mem_set_unit]
  exact Iff.rfl

/-- The gate array after the first region. -/
theorem final0 (c : Dev nD) : (dat0 V c).arrAt 3 cfg0.N = gates (x3Arr V c) (w1Arr V c) (w2Arr V c) :=
  (dat0 V c).arrAt_eq_of_cover 3 (gates (x3Arr V c) (w1Arr V c) (w2Arr V c)) (fun t _ => flushed0_eq V c t) fun i => by
    have h0 : (i 0).val < 256 := (i 0).isLt
    have h1 : (i 1).val < 512 := (i 1).isLt
    have hN : cfg0.N = 32 := N_0
    refine ⟨⟨(i 0).val / 8, by rw [hN]; omega⟩, flush0_3 _, ?_⟩
    rw [mem_blk0]
    obtain ⟨-, -, -, -, -, -, -, e0, e1⟩ := idx_facts0 ⟨(i 0).val / 8, by rw [hN]; omega⟩
    intro a
    match a with
    | ⟨0, _⟩ => show win0_3.index _ (0 : Fin 2) * 8 ≤ (i 0).val ∧ (i 0).val < win0_3.index _ (0 : Fin 2) * 8 + 8; rw [e0]; dsimp only; omega
    | ⟨1, _⟩ => show win0_3.index _ (1 : Fin 2) * 512 ≤ (i 1).val ∧ (i 1).val < win0_3.index _ (1 : Fin 2) * 512 + 512; rw [e1]; omega

/-! ## The second region: the input scaled by its gates -/

theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

abbrev xfArr (c : Dev nD) : S256x256x128.Idx → EReal := V c main_call0_v4
abbrev gfArr (c : Dev nD) : S256x256x2.Idx → EReal := V c main_call0_v5

theorem xfblk_apply (c : Dev nD) (t : Fin cfg1.N) (x : S8x256x128.Idx) (k : S256x256x128.Idx)
    (hk0 : (k 0).val = 8 * t.val + (x 0).val) (hk1 : (k 1).val = (x 1).val) (hk2 : (k 2).val = (x 2).val) :
    (iblk1 V c 0 t : Vec Ideal S8x256x128 .f32) x = xfArr V c k := by
  obtain ⟨e0, e1, e2, -⟩ := idx_facts1 t
  unfold iblk1
  rw [View.read_apply]
  show xfArr V c _ = xfArr V c k
  refine congrArg (xfArr V c) (funext fun a => Fin.ext ?_)
  match a with
  | ⟨0, _⟩ => show win1_0.index t (0 : Fin 3) * 8 + 1 * (x 0).val = (k 0).val; rw [e0, hk0]; omega
  | ⟨1, _⟩ => show win1_0.index t (1 : Fin 3) * 256 + 1 * (x 1).val = (k 1).val; rw [e1, hk1]; omega
  | ⟨2, _⟩ => show win1_0.index t (2 : Fin 3) * 128 + 1 * (x 2).val = (k 2).val; rw [e2, hk2]; omega

theorem gfblk_apply (c : Dev nD) (t : Fin cfg1.N) (x : S8x256x2.Idx) (k : S256x256x2.Idx)
    (hk0 : (k 0).val = 8 * t.val + (x 0).val) (hk1 : (k 1).val = (x 1).val) (hk2 : (k 2).val = (x 2).val) :
    (iblk1 V c 1 t : Vec Ideal S8x256x2 .f32) x = gfArr V c k := by
  obtain ⟨-, -, -, e0, e1, e2, -⟩ := idx_facts1 t
  unfold iblk1
  rw [View.read_apply]
  show gfArr V c _ = gfArr V c k
  refine congrArg (gfArr V c) (funext fun a => Fin.ext ?_)
  match a with
  | ⟨0, _⟩ => show win1_1.index t (0 : Fin 3) * 8 + 1 * (x 0).val = (k 0).val; rw [e0, hk0]; omega
  | ⟨1, _⟩ => show win1_1.index t (1 : Fin 3) * 256 + 1 * (x 1).val = (k 1).val; rw [e1, hk1]; omega
  | ⟨2, _⟩ => show win1_1.index t (2 : Fin 3) * 2 + 1 * (x 2).val = (k 2).val; rw [e2, hk2]; omega

/-- Entry (B, r, l) of the scaled array: the input's entry times gate `l / 64` of row `r`. -/
def foldedAt (X : S256x256x128.Idx → EReal) (G : S256x256x2.Idx → EReal) (B : Fin 256) (r : Fin 256) (l : Fin 128) : EReal :=
  X (ix3 B r l) * G (ix3 B r (⟨l.val / 64, by have := l.isLt; omega⟩ : Fin 2))

def folded (X : S256x256x128.Idx → EReal) (G : S256x256x2.Idx → EReal) : S256x256x128.Idx → EReal :=
  fun i => foldedAt X G (i 0) (i 1) (i 2)

theorem flushed1_eq (c : Dev nD) (t : Fin cfg1.N) :
    (dat1 V c).flushed 2 t = ((cfg1.win 2).blk t).view.read (Elt Ideal) (folded (xfArr V c) (gfArr V c)) := by
  show (cfg1.win 2).cut (grid1.coords t) ((dat1 V c).after 2 t) = _
  rw [after1_2]
  unfold out1_2
  rw [View.canon_unit_zero hz3]
  simp only [View.ld_unit_zero (S := S8x256x128) hz3, View.ld_unit_zero (S := S8x256x2) hz3]
  have key : ∀ y : S8x256x128.Idx,
      k1_pay1 (F := Ideal) (iblk1 V c 0 t) (iblk1 V c 1 t) y
        = folded (xfArr V c) (gfArr V c) (((cfg1.win 2).blk t).view.emb y) := by
    intro y
    obtain ⟨b, r, l, rfl⟩ : ∃ (b : Fin 8) (r : Fin 256) (l : Fin 128), y = ix3 b r l := ⟨y 0, y 1, y 2, eq_ix3 y⟩
    obtain ⟨-, -, -, -, -, -, e0, e1, e2⟩ := idx_facts1 t
    have ht : t.val < 32 := lt_of_lt_of_eq t.isLt N_1
    have hB : 8 * t.val + b.val < 256 := by have := b.isLt; omega
    have hemb : ((cfg1.win 2).blk t).view.emb (ix3 b r l) = (ix3 (⟨8 * t.val + b.val, hB⟩ : Fin 256) r l : S256x256x128.Idx) := by
      funext a; apply Fin.ext
      match a with
      | ⟨0, _⟩ => show win1_2.index t (0 : Fin 3) * 8 + 1 * b.val = 8 * t.val + b.val; rw [e0]; omega
      | ⟨1, _⟩ => show win1_2.index t (1 : Fin 3) * 256 + 1 * r.val = r.val; rw [e1]; omega
      | ⟨2, _⟩ => show win1_2.index t (2 : Fin 3) * 128 + 1 * l.val = l.val; rw [e2]; omega
    rw [hemb]
    refine (scale_apply (iblk1 V c 0 t) (iblk1 V c 1 t) b r l (⟨l.val / 64, by have := l.isLt; omega⟩ : Fin 2) rfl).trans ?_
    show _ = foldedAt (xfArr V c) (gfArr V c) ⟨8 * t.val + b.val, hB⟩ r l
    unfold foldedAt
    rw [xfblk_apply V c t (ix3 b r l) (ix3 (⟨8 * t.val + b.val, hB⟩ : Fin 256) r l) rfl rfl rfl,
      gfblk_apply V c t (ix3 b r (⟨l.val / 64, by have := l.isLt; omega⟩ : Fin 2))
        (ix3 (⟨8 * t.val + b.val, hB⟩ : Fin 256) r (⟨l.val / 64, by have := l.isLt; omega⟩ : Fin 2)) rfl rfl rfl]
  exact funext fun j => key j

theorem mem_blk1 (t : Fin cfg1.N) (i : S256x256x128.Idx) :
    i ∈ ((cfg1.win 2).blk t).view.set ↔ ∀ a : Fin 3, win1_2.index t a * S8x256x128.size a ≤ (i a).val ∧ (i a).val < win1_2.index t a * S8x256x128.size a + S8x256x128.size a := by
  show i ∈ ((View.whole main_call0_v6).slice (win1_2.rect t)).set ↔ _
  rw [View.set_slice_whole, Rect.mem_set_unit]
  exact Iff.rfl

/-- The scaled array after the second region. -/
theorem final1 (c : Dev nD) : (dat1 V c).arrAt 2 cfg1.N = folded (xfArr V c) (gfArr V c) :=
  (dat1 V c).arrAt_eq_of_cover 2 (folded (xfArr V c) (gfArr V c)) (fun t _ => flushed1_eq V c t) fun i => by
    have h0 : (i 0).val < 256 := (i 0).isLt
    have h1 : (i 1).val < 256 := (i 1).isLt
    have h2 : (i 2).val < 128 := (i 2).isLt
    have hN : cfg1.N = 32 := N_1
    refine ⟨⟨(i 0).val / 8, by rw [hN]; omega⟩, flush1_2 _, ?_⟩
    rw [mem_blk1]
    obtain ⟨-, -, -, -, -, -, e0, e1, e2⟩ := idx_facts1 ⟨(i 0).val / 8, by rw [hN]; omega⟩
    intro a
    match a with
    | ⟨0, _⟩ => show win1_2.index _ (0 : Fin 3) * 8 ≤ (i 0).val ∧ (i 0).val < win1_2.index _ (0 : Fin 3) * 8 + 8; rw [e0]; dsimp only; omega
    | ⟨1, _⟩ => show win1_2.index _ (1 : Fin 3) * 256 ≤ (i 1).val ∧ (i 1).val < win1_2.index _ (1 : Fin 3) * 256 + 256; rw [e1]; omega
    | ⟨2, _⟩ => show win1_2.index _ (2 : Fin 3) * 128 ≤ (i 2).val ∧ (i 2).val < win1_2.index _ (2 : Fin 3) * 128 + 128; rw [e2]; omega

end Cert.ReferenceIdeal.SE

end
-- ==== Proof.RefValue.lean ====
/-
  The reference's whole run: its result is the squeeze-and-excite block of its arguments.

  The host views the input three ways without moving a word: [batch, channel, position] for the first region,
  [batch, 256 rows, 128 lanes] for the second, and it views the first region's gates [batch, 256 rows, 2]. All are
  reshapes, so an entry is found by its row-major position: lane `l` of row `r` is position `l mod 64` of channel
  `2r + l / 64`, and gate `g` of row `r` is the gate of channel `2r + g`. So entry (B, c, h, w) of the result is the
  input's entry times the gate of channel `c` of batch row `B`.
-/
import proofs.«104303_g2000005836783008_pallasbulk_831_3_alg».proof.Proof.RefRun
import proofs.«104303_g2000005836783008_pallasbulk_831_3_alg».proof.Proof.RefRegions
import proofs.«104303_g2000005836783008_pallasbulk_831_3_alg».proof.Proof.SeBlock
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.SE

open Cert.ReferenceIdeal Cert.ReferenceIdeal.Gen

variable (m : (ℓ : Loc nD τ sig) → Buf (Elt Ideal) ℓ) (ρ : Dev nD → PrngReg)

abbrev argX (c : Dev nD) : S256x512x8x8.Idx → EReal := m ((c : Thread nD τ).loc main_arg0)
abbrev argW1 (c : Dev nD) : S32x512.Idx → EReal := m ((c : Thread nD τ).loc main_arg1)
abbrev argW2 (c : Dev nD) : S512x32.Idx → EReal := m ((c : Thread nD τ).loc main_arg2)

/-! ## The reshapes, read at an index -/

/-- [batch, channel, h, w] viewed [batch, channel, position]. -/
def slab (A : S256x512x8x8.Idx → EReal) : S256x512x64.Idx → EReal := shapeCast S256x512x64 A shapeCasts_S256x512x8x8_S256x512x64
/-- [batch, channel, h, w] viewed [batch, 256 rows, 128 lanes]. -/
def lanes (A : S256x512x8x8.Idx → EReal) : S256x256x128.Idx → EReal := shapeCast S256x256x128 A shapeCasts_S256x512x8x8_S256x256x128
/-- [batch, channel] viewed [batch, 256 rows, 2]. -/
def pairs (G : S256x512.Idx → EReal) : S256x256x2.Idx → EReal := shapeCast S256x256x2 G shapeCasts_S256x512_S256x256x2
/-- [batch, 256 rows, 128 lanes] viewed [batch, channel, h, w]. -/
def unlanes (A : S256x256x128.Idx → EReal) : S256x512x8x8.Idx → EReal := shapeCast S256x512x8x8 A shapeCasts_S256x256x128_S256x512x8x8

theorem slab_apply (A : S256x512x8x8.Idx → EReal) (B : Fin 256) (k : Fin 512) (s : Fin 64) (h w : Fin 8)
    (hs : s.val = 8 * h.val + w.val) : slab A (ix3 B k s) = A (ix4 B k h w) := by
  unfold slab
  refine shapeCast_apply _ shapeCasts_S256x512x8x8_S256x512x64 (ix3 B k s) (ix4 B k h w) ?_
  rw [Shape.rowMajor_val_four, Shape.rowMajor_val_three]
  show ((B.val * 512 + k.val) * 8 + h.val) * 8 + w.val = (B.val * 512 + k.val) * 64 + s.val
  omega

theorem lanes_apply (A : S256x512x8x8.Idx → EReal) (B : Fin 256) (r : Fin 256) (l : Fin 128) (c : Fin 512) (h w : Fin 8)
    (hf : r.val * 128 + l.val = c.val * 64 + 8 * h.val + w.val) : lanes A (ix3 B r l) = A (ix4 B c h w) := by
  unfold lanes
  refine shapeCast_apply _ shapeCasts_S256x512x8x8_S256x256x128 (ix3 B r l) (ix4 B c h w) ?_
  rw [Shape.rowMajor_val_four, Shape.rowMajor_val_three]
  show ((B.val * 512 + c.val) * 8 + h.val) * 8 + w.val = (B.val * 256 + r.val) * 128 + l.val
  omega

theorem pairs_apply (G : S256x512.Idx → EReal) (B : Fin 256) (r : Fin 256) (g : Fin 2) (c : Fin 512)
    (hc : c.val = 2 * r.val + g.val) : pairs G (ix3 B r g) = G (ix2 B c) := by
  unfold pairs
  refine shapeCast_apply _ shapeCasts_S256x512_S256x256x2 (ix3 B r g) (ix2 B c) ?_
  rw [Shape.rowMajor_val_two, Shape.rowMajor_val_three]
  show B.val * 512 + c.val = (B.val * 256 + r.val) * 2 + g.val
  omega

theorem unlanes_apply (A : S256x256x128.Idx → EReal) (B : Fin 256) (c : Fin 512) (h w : Fin 8) (r : Fin 256) (l : Fin 128)
    (hf : r.val * 128 + l.val = c.val * 64 + 8 * h.val + w.val) : unlanes A (ix4 B c h w) = A (ix3 B r l) := by
  unfold unlanes
  refine shapeCast_apply _ shapeCasts_S256x256x128_S256x512x8x8 (ix4 B c h w) (ix3 B r l) ?_
  rw [Shape.rowMajor_val_four, Shape.rowMajor_val_three]
  show (B.val * 256 + r.val) * 128 + l.val = ((B.val * 512 + c.val) * 8 + h.val) * 8 + w.val
  omega

/-! ## The buffers at the boundaries -/

/-- Entering the first region: the transposed weights and the input as a slab. -/
theorem v1_w1 (c : Dev nD) : w1Arr (V1 m ρ) c = transpose S512x32 [1, 0] (argW1 m c) transposes_S32x512_S512x32_1_0 := by
  show StableHlo.after hostOps0 (W0 m ρ c) (Proc.devRef .tc main_call0_v0) = _
  after_results
  rfl

theorem v1_w2 (c : Dev nD) : w2Arr (V1 m ρ) c = transpose S32x512 [1, 0] (argW2 m c) transposes_S512x32_S32x512_1_0 := by
  show StableHlo.after hostOps0 (W0 m ρ c) (Proc.devRef .tc main_call0_v1) = _
  after_results
  rfl

theorem v1_x (c : Dev nD) : x3Arr (V1 m ρ) c = slab (argX m c) := by
  show StableHlo.after hostOps0 (W0 m ρ c) (Proc.devRef .tc main_call0_v2) = _
  after_results
  rfl

/-- Neither the first stretch nor the first region writes the input argument. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl

/-- Entering the second region: the input as rows of lanes, the first region's gates as pairs. -/
theorem v3_x (c : Dev nD) : xfArr (V3 m ρ) c = lanes (argX m c) := by
  show StableHlo.after hostOps1 (W2 m ρ c) (Proc.devRef .tc main_call0_v4) = _
  after_results
  exact congrArg lanes (W2_arg0 m ρ c)

theorem v3_g (c : Dev nD) :
    gfArr (V3 m ρ) c = pairs (gates (x3Arr (V1 m ρ) c) (w1Arr (V1 m ρ) c) (w2Arr (V1 m ρ) c)) := by
  show StableHlo.after hostOps1 (W2 m ρ c) (Proc.devRef .tc main_call0_v5) = _
  after_results
  have hW : W2 m ρ c (Proc.devRef .tc main_call0_v3) = gates (x3Arr (V1 m ρ) c) (w1Arr (V1 m ρ) c) (w2Arr (V1 m ρ) c) :=
    (W2_arr m ρ c 3).trans (final0 (V1 m ρ) c)
  exact congrArg pairs hW

/-- After the last stretch: the second region's output viewed [batch, channel, h, w]. -/
theorem W5_v0 (c : Dev nD) :
    W5 m ρ c (Proc.devRef .tc main_v0) = unlanes (folded (xfArr (V3 m ρ) c) (gfArr (V3 m ρ) c)) := by
  show StableHlo.after hostOps2 (W4 m ρ c) (Proc.devRef .tc main_v0) = _
  after_results
  have hW : W4 m ρ c (Proc.devRef .tc main_call0_v6) = folded (xfArr (V3 m ρ) c) (gfArr (V3 m ρ) c) :=
    (W4_arr m ρ c 2).trans (final1 (V3 m ρ) c)
  exact congrArg unlanes hW

/-! ## The result is the block of the arguments -/

theorem w1_apply (c : Dev nD) (k : Fin 512) (j : Fin 32) : w1Arr (V1 m ρ) c (ix2 k j) = argW1 m c (ix2 j k) := by
  rw [v1_w1]
  refine transpose_apply [1, 0] _ transposes_S32x512_S512x32_1_0 (ix2 k j) (ix2 j k) (fun b => ?_)
  match b with
  | ⟨0, _⟩ => rfl
  | ⟨1, _⟩ => rfl

theorem w2_apply (c : Dev nD) (j : Fin 32) (c' : Fin 512) : w2Arr (V1 m ρ) c (ix2 j c') = argW2 m c (ix2 c' j) := by
  rw [v1_w2]
  refine transpose_apply [1, 0] _ transposes_S512x32_S32x512_1_0 (ix2 j c') (ix2 c' j) (fun b => ?_)
  match b with
  | ⟨0, _⟩ => rfl
  | ⟨1, _⟩ => rfl

theorem x3_apply (c : Dev nD) (B : Fin 256) (k : Fin 512) (s : Fin 64) (h w : Fin 8) (hs : s.val = 8 * h.val + w.val) :
    x3Arr (V1 m ρ) c (ix3 B k s) = argX m c (ix4 B k h w) := by
  rw [v1_x]; exact slab_apply _ B k s h w hs

theorem result_eq (c : Dev nD) :
    unlanes (folded (xfArr (V3 m ρ) c) (gfArr (V3 m ρ) c)) = Cert.SE.seOut (argX m c) (argW1 m c) (argW2 m c) := by
  funext i
  obtain ⟨B, c', h, w, rfl⟩ : ∃ (B : Fin 256) (c' : Fin 512) (h w : Fin 8), i = ix4 B c' h w := ⟨i 0, i 1, i 2, i 3, eq_ix4 i⟩
  have hc : c'.val < 512 := c'.isLt
  have hh : h.val < 8 := h.isLt
  have hw : w.val < 8 := w.isLt
  have hr : c'.val / 2 < 256 := by omega
  have hl : c'.val % 2 * 64 + 8 * h.val + w.val < 128 := by omega
  rw [unlanes_apply _ B c' h w ⟨c'.val / 2, hr⟩ ⟨c'.val % 2 * 64 + 8 * h.val + w.val, hl⟩ (by dsimp only; omega)]
  show foldedAt (xfArr (V3 m ρ) c) (gfArr (V3 m ρ) c) B ⟨c'.val / 2, hr⟩ ⟨c'.val % 2 * 64 + 8 * h.val + w.val, hl⟩
    = Cert.SE.seAt (argX m c) (argW1 m c) (argW2 m c) B c' h w
  unfold foldedAt Cert.SE.seAt
  rw [v3_x, v3_g,
    lanes_apply _ B ⟨c'.val / 2, hr⟩ ⟨c'.val % 2 * 64 + 8 * h.val + w.val, hl⟩ c' h w (by dsimp only; omega),
    pairs_apply _ B ⟨c'.val / 2, hr⟩ _ c' (by dsimp only; omega)]
  show _ * gatesAt (x3Arr (V1 m ρ) c) (w1Arr (V1 m ρ) c) (w2Arr (V1 m ρ) c) B c' = _
  unfold gatesAt
  have hx : ∀ (k : Fin 512) (s : Fin 64), x3Arr (V1 m ρ) c (ix3 B k s)
      = argX m c (ix4 B k (⟨s.val / 8, by have := s.isLt; omega⟩ : Fin 8) (⟨s.val % 8, by omega⟩ : Fin 8)) :=
    fun k s => x3_apply m ρ c B k s _ _ (by show s.val = 8 * (s.val / 8) + s.val % 8; omega)
  have h1 : ∀ (k : Fin 512) (j : Fin 32), w1Arr (V1 m ρ) c (ix2 k j) = argW1 m c (ix2 j k) := fun k j => w1_apply m ρ c k j
  have h2 : ∀ (j : Fin 32) (c'' : Fin 512), w2Arr (V1 m ρ) c (ix2 j c'') = argW2 m c (ix2 c'' j) := fun j c'' => w2_apply m ρ c j c''
  simp only [hx, h1, h2]

/-- The run, read: the result at the block of the arguments, the arguments unchanged. -/
theorem run : θ_run defs (onTc (τ := τ) (main (F := Ideal))) ⟨m, fun _ => 0, ρ⟩ fun r => ∀ c : Dev nD,
      r.2.mem ((c.tc : Thread nD τ).loc main_v0) = Cert.SE.seOut (argX m c) (argW1 m c) (argW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((W5_v0 m ρ c).trans (result_eq m ρ c)), (h c).2⟩)
    (Cert.ReferenceIdeal.GenP.run_all (F := Ideal) m ρ)

end Cert.ReferenceIdeal.SE

end
-- ==== Proof.lean ====
/-
  The squeeze-and-excite block, fused into one kernel, against the two-pass reference.

  Both programs compute, at batch row B, channel c, position (h, w),
      x[B, c, h, w] · logistic ( Σ_j max ( Σ_k ((Σ_s x[B, k, s]) · 1/64) · w1[j, k] , 0 ) · w2[c, j] ),
  the inner sum over the 64 spatial positions of channel k. The fused kernel works on blocks of 16 batch rows laid out
  [row, position, channel], sums over the block's middle axis and scales the block it has loaded; the reference works
  on blocks of 8 batch rows laid out [row, channel, position], sums over the last axis into an accumulator it has just
  zeroed, stores the gates, and scales in a second pass over rows of 128 lanes, choosing between a row's two gates by
  the lane number. On the extended reals a matrix product into a zero accumulator is the plain sum of products,
  a sum started from zero is the sum, and 1/64 is the same word on both sides; the layout operations around the
  kernels only re-index. So both result arrays are one function of the arguments (`Cert.SE.seOut`), index by index,
  with no law beyond `0 + a = a`; the inputs' finiteness is never used. The idealization rewrote nothing.
-/
import proofs.«104303_g2000005836783008_pallasbulk_831_3_alg».proof.Defs
import proofs.«104303_g2000005836783008_pallasbulk_831_3_alg».proof.Proof.Gen.Kernel
import proofs.«104303_g2000005836783008_pallasbulk_831_3_alg».proof.Proof.Gen.Kernel.Skeleton
import proofs.«104303_g2000005836783008_pallasbulk_831_3_alg».proof.Proof.Gen.Kernel.Launch
import proofs.«104303_g2000005836783008_pallasbulk_831_3_alg».proof.Proof.Gen.Kernel.Points
import proofs.«104303_g2000005836783008_pallasbulk_831_3_alg».proof.Proof.Gen.Kernel.Frame
import proofs.«104303_g2000005836783008_pallasbulk_831_3_alg».proof.Proof.Gen.KernelIdeal
import proofs.«104303_g2000005836783008_pallasbulk_831_3_alg».proof.Proof.Gen.KernelIdeal.Skeleton
import proofs.«104303_g2000005836783008_pallasbulk_831_3_alg».proof.Proof.Gen.KernelIdeal.Launch
import proofs.«104303_g2000005836783008_pallasbulk_831_3_alg».proof.Proof.Gen.KernelIdeal.Points
import proofs.«104303_g2000005836783008_pallasbulk_831_3_alg».proof.Proof.Gen.KernelIdeal.Frame
import proofs.«104303_g2000005836783008_pallasbulk_831_3_alg».proof.Proof.Gen.ReferenceIdeal
import proofs.«104303_g2000005836783008_pallasbulk_831_3_alg».proof.Proof.Gen.ReferenceIdeal.Skeleton
import proofs.«104303_g2000005836783008_pallasbulk_831_3_alg».proof.Proof.Gen.ReferenceIdeal.Launch
import proofs.«104303_g2000005836783008_pallasbulk_831_3_alg».proof.Proof.Gen.ReferenceIdeal.Points
import proofs.«104303_g2000005836783008_pallasbulk_831_3_alg».proof.Proof.Gen.ReferenceIdeal.Frame
import proofs.«104303_g2000005836783008_pallasbulk_831_3_alg».proof.Proof.Gen.Pre_finite_inputs
import proofs.«104303_g2000005836783008_pallasbulk_831_3_alg».proof.Proof.KernelRun
import proofs.«104303_g2000005836783008_pallasbulk_831_3_alg».proof.Proof.RefValue
import Idealize.ShloMosaic.Adequacy
import Idealize.ShloMosaic.Init

noncomputable section

namespace Cert.Proof

open Idealize.ShloMosaic Idealize.SL.Sem

/-- Each program runs to the end without a fault and leaves its arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealized kernel is the kernel's own text read on the extended reals: nothing was rewritten. -/
theorem preserves : Cert.preserves_Kernel_KernelIdeal := trivial

/-- From memories that agree on the arguments both idealized programs end with the result buffer at the block of the
    arguments: the kernel's run and the reference's run are posted at the same function, so it remains to carry the
    agreement of the arguments into it. -/
theorem algebraic : Cert.algebraic_KernelIdeal_ReferenceIdeal := by
  intro m ρ m' ρ' _ hagree
  refine ⟨fun c => Cert.SE.seOut (Cert.KernelIdeal.SE.argX m c) (Cert.KernelIdeal.SE.argW1 m c) (Cert.KernelIdeal.SE.argW2 m c),
    Cert.KernelIdeal.SE.run m ρ, ?_⟩
  refine (θ_run Cert.ReferenceIdeal.defs _ _).mono (fun _ h c => ⟨(h c).1.trans ?_, (h c).2⟩)
    (Cert.ReferenceIdeal.SE.run m' ρ')
  show Cert.SE.seOut (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
